-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S3200000 : Shape := ⟨1, ![3200000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg6 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S3200000 32) (main_arg2 : IVec S3200000 32) (main_arg3 : FVec F S128x64 .f32) (main_arg4 : FVec F S64 .f32) (main_arg5 : FVec F S64x64 .f32) (main_arg6 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_v13 main_v16
-- ==== Kernel.lean ====
abbrev S100000x128 : Shape := ⟨2, ![100000, 128]⟩
abbrev S3200000 : Shape := ⟨1, ![3200000]⟩
abbrev S128x64 : Shape := ⟨2, ![128, 64]⟩
abbrev S64 : Shape := ⟨1, ![64]⟩
abbrev S64x64 : Shape := ⟨2, ![64, 64]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S100000x64 : Shape := ⟨2, ![100000, 64]⟩
abbrev S5000x128 : Shape := ⟨2, ![5000, 128]⟩
abbrev S5000x1 : Shape := ⟨2, ![5000, 1]⟩
abbrev S5000x64 : Shape := ⟨2, ![5000, 64]⟩
abbrev S3200000x64 : Shape := ⟨2, ![3200000, 64]⟩
abbrev S1x64 : Shape := ⟨2, ![1, 64]⟩

abbrev nBuf : Space → Nat
  | .hbm => 63
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S3200000, .i32⟩
  | .hbm, ⟨2, _⟩ => ⟨S3200000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S_, .f32⟩
  | .hbm, ⟨8, _⟩ => ⟨S3200000, .f32⟩
  | .hbm, ⟨9, _⟩ => ⟨S_, .f32⟩
  | .hbm, ⟨10, _⟩ => ⟨S100000, .f32⟩
  | .hbm, ⟨11, _⟩ => ⟨S3200000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S3200000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x64, .f32⟩
  | .hbm, ⟨32, _⟩ => ⟨S_, .i32⟩
  | .hbm, ⟨33, _⟩ => ⟨S3200000, .i32⟩
  | .hbm, ⟨34, _⟩ => ⟨S3200000, .i1⟩
  | .hbm, ⟨35, _⟩ => ⟨S_, .i32⟩
  | .hbm, ⟨36, _⟩ => ⟨S3200000, .i32⟩
  | .hbm, ⟨37, _⟩ => ⟨S3200000, .i32⟩
  | .hbm, ⟨38, _⟩ => ⟨S3200000, .i32⟩
  | .hbm, ⟨39, _⟩ => ⟨S3200000x1, .i32⟩
  | .hbm, ⟨40, _⟩ => ⟨S3200000x64, .f32⟩
  | .hbm, ⟨41, _⟩ => ⟨S_, .f32⟩
  | .hbm, ⟨42, _⟩ => ⟨S100000x64, .f32⟩
  | .hbm, ⟨43, _⟩ => ⟨S3200000x1, .i32⟩
  | .hbm, ⟨44, _⟩ => ⟨S100000x64, .f32⟩
  | .hbm, ⟨45, _⟩ => ⟨S1x64, .f32⟩
  | .hbm, ⟨46, _⟩ => ⟨S100000x64, .f32⟩
  | .hbm, ⟨47, _⟩ => ⟨S100000x64, .f32⟩
  | .hbm, ⟨48, _⟩ => ⟨S_, .i32⟩
  | .hbm, ⟨49, _⟩ => ⟨S3200000, .i32⟩
  | .hbm, ⟨50, _⟩ => ⟨S3200000, .i1⟩
  | .hbm, ⟨51, _⟩ => ⟨S_, .i32⟩
  | .hbm, ⟨52, _⟩ => ⟨S3200000, .i32⟩
  | .hbm, ⟨53, _⟩ => ⟨S3200000, .i32⟩
  | .hbm, ⟨54, _⟩ => ⟨S3200000, .i32⟩
  | .hbm, ⟨55, _⟩ => ⟨S3200000x1, .i32⟩
  | .hbm, ⟨56, _⟩ => ⟨S3200000x64, .f32⟩
  | .hbm, ⟨57, _⟩ => ⟨S_, .f32⟩
  | .hbm, ⟨58, _⟩ => ⟨S100000x64, .f32⟩
  | .hbm, ⟨59, _⟩ => ⟨S3200000x1, .i32⟩
  | .hbm, ⟨60, _⟩ => ⟨S100000x64, .f32⟩
  | .hbm, ⟨61, _⟩ => ⟨S1x64, .f32⟩
  | .hbm, ⟨62, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x1, .f32⟩
  | .local _ .vmem, ⟨17, _⟩ => ⟨S5000x1, .f32⟩
  | .local _ .vmem, ⟨18, _⟩ => ⟨S64x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_8 : Ref sig .tc := ⟨.hbm, 48, rfl⟩
abbrev main_v31 : Ref sig .tc := ⟨.hbm, 49, rfl⟩
abbrev main_v32 : Ref sig .tc := ⟨.hbm, 50, rfl⟩
abbrev main_c_9 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_10 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  scatter_S100000_S3200000x1_S3200000_n_0_0_1_wf : ScatterDims.WF S100000 S3200000x1 S3200000 [] [0] [0] 1
  dot_S5000x128_S128x64_S5000x64_1_0_0_1_n_n_wf : DotDims.WF S5000x128 S128x64 S5000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v29) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v30) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v40) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v16) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v41) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v42) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S3200000 : Shape := ⟨1, ![3200000]⟩
abbrev S128x64 : Shape := ⟨2, ![128, 64]⟩
abbrev S64 : Shape := ⟨1, ![64]⟩
abbrev S64x64 : Shape := ⟨2, ![64, 64]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S100000x64 : Shape := ⟨2, ![100000, 64]⟩
abbrev S3200000x64 : Shape := ⟨2, ![3200000, 64]⟩
abbrev S1x64 : Shape := ⟨2, ![1, 64]⟩

abbrev nBuf : Space → Nat
  | .hbm => 100
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S3200000, .i32⟩
  | .hbm, ⟨2, _⟩ => ⟨S3200000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S_, .f32⟩
  | .hbm, ⟨8, _⟩ => ⟨S3200000, .f32⟩
  | .hbm, ⟨9, _⟩ => ⟨S_, .f32⟩
  | .hbm, ⟨10, _⟩ => ⟨S100000, .f32⟩
  | .hbm, ⟨11, _⟩ => ⟨S3200000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S3200000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x128, .f32⟩
  | .hbm, ⟨31, _⟩ => ⟨S100000x128, .f32⟩
  | .hbm, ⟨32, _⟩ => ⟨S100000x64, .f32⟩
  | .hbm, ⟨33, _⟩ => ⟨S_, .i32⟩
  | .hbm, ⟨34, _⟩ => ⟨S3200000, .i32⟩
  | .hbm, ⟨35, _⟩ => ⟨S3200000, .i1⟩
  | .hbm, ⟨36, _⟩ => ⟨S_, .i32⟩
  | .hbm, ⟨37, _⟩ => ⟨S3200000, .i32⟩
  | .hbm, ⟨38, _⟩ => ⟨S3200000, .i32⟩
  | .hbm, ⟨39, _⟩ => ⟨S3200000, .i32⟩
  | .hbm, ⟨40, _⟩ => ⟨S3200000x1, .i32⟩
  | .hbm, ⟨41, _⟩ => ⟨S3200000x64, .f32⟩
  | .hbm, ⟨42, _⟩ => ⟨S_, .f32⟩
  | .hbm, ⟨43, _⟩ => ⟨S100000x64, .f32⟩
  | .hbm, ⟨44, _⟩ => ⟨S3200000x1, .i32⟩
  | .hbm, ⟨45, _⟩ => ⟨S100000x64, .f32⟩
  | .hbm, ⟨46, _⟩ => ⟨S100000x1, .f32⟩
  | .hbm, ⟨47, _⟩ => ⟨S100000x64, .f32⟩
  | .hbm, ⟨48, _⟩ => ⟨S100000x64, .f32⟩
  | .hbm, ⟨49, _⟩ => ⟨S1x64, .f32⟩
  | .hbm, ⟨50, _⟩ => ⟨S100000x64, .f32⟩
  | .hbm, ⟨51, _⟩ => ⟨S100000x64, .f32⟩
  | .hbm, ⟨52, _⟩ => ⟨S_, .f32⟩
  | .hbm, ⟨53, _⟩ => ⟨S100000x64, .f32⟩
  | .hbm, ⟨54, _⟩ => ⟨S100000x64, .f32⟩
  | .hbm, ⟨55, _⟩ => ⟨S_, .f32⟩
  | .hbm, ⟨56, _⟩ => ⟨S3200000, .f32⟩
  | .hbm, ⟨57, _⟩ => ⟨S_, .f32⟩
  | .hbm, ⟨58, _⟩ => ⟨S100000, .f32⟩
  | .hbm, ⟨59, _⟩ => ⟨S3200000x1, .i32⟩
  | .hbm, ⟨60, _⟩ => ⟨S100000, .f32⟩
  | .hbm, ⟨61, _⟩ => ⟨S_, .f32⟩
  | .hbm, ⟨62, _⟩ => ⟨S100000, .f32⟩
  | .hbm, ⟨63, _⟩ => ⟨S3200000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S_, .f32⟩
  | .hbm, ⟨69, _⟩ => ⟨S100000, .f32⟩
  | .hbm, ⟨70, _⟩ => ⟨S100000, .f32⟩
  | .hbm, ⟨71, _⟩ => ⟨S_, .f32⟩
  | .hbm, ⟨72, _⟩ => ⟨S100000, .f32⟩
  | .hbm, ⟨73, _⟩ => ⟨S100000, .f32⟩
  | .hbm, ⟨74, _⟩ => ⟨S_, .f32⟩
  | .hbm, ⟨75, _⟩ => ⟨S100000, .f32⟩
  | .hbm, ⟨76, _⟩ => ⟨S100000, .f32⟩
  | .hbm, ⟨77, _⟩ => ⟨S100000x1, .f32⟩
  | .hbm, ⟨78, _⟩ => ⟨S100000x64, .f32⟩
  | .hbm, ⟨79, _⟩ => ⟨S100000x64, .f32⟩
  | .hbm, ⟨80, _⟩ => ⟨S100000x64, .f32⟩
  | .hbm, ⟨81, _⟩ => ⟨S_, .i32⟩
  | .hbm, ⟨82, _⟩ => ⟨S3200000, .i32⟩
  | .hbm, ⟨83, _⟩ => ⟨S3200000, .i1⟩
  | .hbm, ⟨84, _⟩ => ⟨S_, .i32⟩
  | .hbm, ⟨85, _⟩ => ⟨S3200000, .i32⟩
  | .hbm, ⟨86, _⟩ => ⟨S3200000, .i32⟩
  | .hbm, ⟨87, _⟩ => ⟨S3200000, .i32⟩
  | .hbm, ⟨88, _⟩ => ⟨S3200000x1, .i32⟩
  | .hbm, ⟨89, _⟩ => ⟨S3200000x64, .f32⟩
  | .hbm, ⟨90, _⟩ => ⟨S_, .f32⟩
  | .hbm, ⟨91, _⟩ => ⟨S100000x64, .f32⟩
  | .hbm, ⟨92, _⟩ => ⟨S3200000x1, .i32⟩
  | .hbm, ⟨93, _⟩ => ⟨S100000x64, .f32⟩
  | .hbm, ⟨94, _⟩ => ⟨S100000x1, .f32⟩
  | .hbm, ⟨95, _⟩ => ⟨S100000x64, .f32⟩
  | .hbm, ⟨96, _⟩ => ⟨S100000x64, .f32⟩
  | .hbm, ⟨97, _⟩ => ⟨S1x64, .f32⟩
  | .hbm, ⟨98, _⟩ => ⟨S100000x64, .f32⟩
  | .hbm, ⟨99, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_cst_5 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c : Ref sig .tc := ⟨.hbm, 33, rfl⟩
abbrev main_v19 : Ref sig .tc := ⟨.hbm, 34, rfl⟩
abbrev main_v20 : Ref sig .tc := ⟨.hbm, 35, rfl⟩
abbrev main_c_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_call0_cst : Ref sig .tc := ⟨.hbm, 52, rfl⟩
abbrev main_call0_v0 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_10 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_11 : Ref sig .tc := ⟨.hbm, 65, rfl⟩
abbrev main_v43 : Ref sig .tc := ⟨.hbm, 66, rfl⟩
abbrev main_v44 : Ref sig .tc := ⟨.hbm, 67, rfl⟩
abbrev main_cst_12 : Ref sig .tc := ⟨.hbm, 68, rfl⟩
abbrev main_v45 : Ref sig .tc := ⟨.hbm, 69, rfl⟩
abbrev main_v46 : Ref sig .tc := ⟨.hbm, 70, rfl⟩
abbrev main_cst_13 : Ref sig .tc := ⟨.hbm, 71, rfl⟩
abbrev main_v47 : Ref sig .tc := ⟨.hbm, 72, rfl⟩
abbrev main_v48 : Ref sig .tc := ⟨.hbm, 73, rfl⟩
abbrev main_cst_14 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_c_15 : Ref sig .tc := ⟨.hbm, 81, rfl⟩
abbrev main_v55 : Ref sig .tc := ⟨.hbm, 82, rfl⟩
abbrev main_v56 : Ref sig .tc := ⟨.hbm, 83, rfl⟩
abbrev main_c_16 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_17 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S3200000x1_S3200000_n_0_0_1_wf : ScatterDims.WF S100000 S3200000x1 S3200000 [] [0] [0] 1
  dot_S100000x128_S128x64_S100000x64_1_0_0_1_n_n_wf : DotDims.WF S100000x128 S128x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Spec.lean ====
/- The mathematics of the two-layer graph convolution both programs compute, as whole-array functions over the
   extended reals.

   One layer, for node features `x`, edge lists `src` and `dst`, weights `W` and bias `b`:
     * the degree norm of an edge list: (max (number of edges at the node) 1) ^ (-1/2), node by node;
     * the scaled product: row `a` of `x` times its source-degree norm, then times `W`:
       entry (a, b) is the sum over k of (x (a, k) · n a) · W (k, b);
     * the aggregation: rows gathered along `src` (a negative index counted from the end), summed into `dst`;
     * the closing step: entry (a, b) times the destination-degree norm of node `a`, plus `b b`; the first layer then
       takes the maximum with 0.
   The degree norm and the aggregation are the host's own operations on both sides (a scatter that adds, a gather,
   a power): they are kept as those operations and never opened. -/
import proofs.«155027_j12412455486167_1_alg».proof.Proof.Gen.KernelIdeal
import Idealize.ShloMosaic.PureOps.Ideal
import Idealize.ShloMosaic.Lib.ValueIdx

noncomputable section

namespace Cert.GraphConv

open Cert.KernelIdeal Cert.KernelIdeal.Gen Idealize.ShloMosaic Idealize.ShloMosaic.ValueIdx
open scoped BigOperators

/-- A vector of per-node values as a one-column matrix. -/
def col (n : FVec Ideal S100000 .f32) : FVec Ideal S100000x1 .f32 := fun j => n (ix1 (j 0))

/-- A bias vector as a one-row matrix. -/
def row (b : FVec Ideal S64 .f32) : FVec Ideal S1x64 .f32 := fun j => b (ix1 (j 1))

/-- The scaled product of the first layer (128 input features): entry (a, b) is the sum over k of
    (x (a, k) · n (a, 0)) · w (k, b). -/
def scaledProduct128 (x : FVec Ideal S100000x128 .f32) (n : FVec Ideal S100000x1 .f32) (w : FVec Ideal S128x64 .f32) :
    FVec Ideal S100000x64 .f32 :=
  fun i => ∑ k : Fin 128, (x (ix2 (i 0) k) * n (ix2 (i 0) 0)) * w (ix2 k (i 1))

/-- The scaled product of the second layer (64 input features). -/
def scaledProduct64 (x : FVec Ideal S100000x64 .f32) (n : FVec Ideal S100000x1 .f32) (w : FVec Ideal S64x64 .f32) :
    FVec Ideal S100000x64 .f32 :=
  fun i => ∑ k : Fin 64, (x (ix2 (i 0) k) * n (ix2 (i 0) 0)) * w (ix2 k (i 1))

/-- The closing step of a layer: entry (a, b) times the norm of node a, plus the bias at b. -/
def scaleBias (a : FVec Ideal S100000x64 .f32) (n : FVec Ideal S100000x1 .f32) (b : FVec Ideal S1x64 .f32) :
    FVec Ideal S100000x64 .f32 :=
  fun i => a i * n (ix2 (i 0) 0) + b (ix2 0 (i 1))

/-- The closing step followed by the maximum with 0 (the zero word denotes 0). -/
def scaleBiasRelu (a : FVec Ideal S100000x64 .f32) (n : FVec Ideal S100000x1 .f32) (b : FVec Ideal S1x64 .f32) :
    FVec Ideal S100000x64 .f32 :=
  fun i => max (a i * n (ix2 (i 0) 0) + b (ix2 0 (i 1))) (Ideal.ofBits .f32 0x00000000#32)

/-- The degree norm of an edge list: ones scattered and added at the list's nodes, the maximum with 1, the power -1/2.
    The host's operations, as printed. -/
def degNorm (e : Vec Ideal S3200000 .i32) : FVec Ideal S100000 .f32 :=
  Host.powf
    (maximumf
      (Host.scatterAdd scatter_S100000_S3200000x1_S3200000_n_0_0_1
        (broadcastInDim S100000 ![] bcast_S_S100000 (constant (F := Ideal) S_ .f32 0x00000000#32))
        (broadcastInDim S3200000x1 ![0] bcast_S3200000_S3200000x1_0 e)
        (broadcastInDim S3200000 ![] bcast_S_S3200000 (constant (F := Ideal) S_ .f32 0x3F800000#32)))
      (broadcastInDim S100000 ![] bcast_S_S100000 (constant (F := Ideal) S_ .f32 0x3F800000#32)))
    (broadcastInDim S100000 ![] bcast_S_S100000 (constant (F := Ideal) S_ .f32 0xBF000000#32))

/-- The aggregation: the rows of `h` gathered along `src` (a negative index has 100000 added) and summed into the
    rows `dst` names, from zero. The host's operations, as printed. -/
def aggregate (src dst : Vec Ideal S3200000 .i32) (h : FVec Ideal S100000x64 .f32) : FVec Ideal S100000x64 .f32 :=
  Host.scatterAdd scatter_S100000x64_S3200000x1_S3200000x64_1_0_0_1
    (broadcastInDim S100000x64 ![] bcast_S_S100000x64 (constant (F := Ideal) S_ .f32 0x00000000#32))
    (broadcastInDim S3200000x1 ![0] bcast_S3200000_S3200000x1_0 dst)
    (Host.gather gather_S100000x64_S3200000x1_S3200000x64_1_0_n_n_0_1_164 h
      (broadcastInDim S3200000x1 ![0] bcast_S3200000_S3200000x1_0
        (select (cmpi .slt src (broadcastInDim S3200000 ![] bcast_S_S3200000 (constantI S_ 32 0#32)))
          (addi src (broadcastInDim S3200000 ![] bcast_S_S3200000 (constantI S_ 32 100000#32))) src)))

/-- The two layers. -/
def twoLayers (x : FVec Ideal S100000x128 .f32) (src dst : Vec Ideal S3200000 .i32) (w1 : FVec Ideal S128x64 .f32)
    (b1 : FVec Ideal S64 .f32) (w2 : FVec Ideal S64x64 .f32) (b2 : FVec Ideal S64 .f32) : FVec Ideal S100000x64 .f32 :=
  scaleBias
    (aggregate src dst
      (scaledProduct64
        (scaleBiasRelu (aggregate src dst (scaledProduct128 x (col (degNorm src)) w1)) (col (degNorm dst)) (row b1))
        (col (degNorm src)) w2))
    (col (degNorm dst)) (row b2)

end Cert.GraphConv

end
-- ==== Proof.LibDotPlain.lean ====
/- A matrix product read at one index, for dimension numbers with no batch axis and one contracted axis.

   Two arrangements: rows times columns (the left operand's second axis against the right operand's first), and
   the transposed-left product (both operands' first axes contracted: the left operand's columns index the result's
   rows). In both the contraction index is one coordinate, and the sum over it is a sum over that coordinate. The
   kernel's product into a zero accumulator and the host's product are that same sum. -/
import Idealize.ShloMosaic.PureOps.Ideal
import Idealize.ShloMosaic.PureOps.Ideal.Laws
import Idealize.ShloMosaic.Lib.ValueIdx

noncomputable section

namespace Cert.DotPlain

open Idealize.ShloMosaic Idealize.ShloMosaic.ValueIdx
open scoped BigOperators

/-! ## One contracted axis, no batch axis: the contraction shape and the operand coordinates -/

/-- A list that is a singleton has its one element at position 0. -/
theorem getElem_zero_of_eq_singleton {α : Type} {l : List α} {c : α} (h : l = [c]) (hp : 0 < l.length) : l[0] = c := by
  subst h; rfl

/-- With one contracted axis the contraction shape has one axis. -/
theorem contr_rank_one {sl sr so : Shape} (d : DotDims sl sr so) {c : Fin sl.rank} (hlc : d.lhsContracting = [c]) :
    d.contr.rank = 1 := by
  rw [d.rank_contr, hlc]; rfl

/-- That one axis has the extent of the left operand's contracted axis. -/
theorem contr_size_zero {sl sr so : Shape} (d : DotDims sl sr so) {c : Fin sl.rank} (hlc : d.lhsContracting = [c]) :
    d.contr.size ⟨0, by rw [contr_rank_one d hlc]; exact Nat.one_pos⟩ = sl.size c := by
  have hp : 0 < d.lhsContracting.length := by rw [hlc]; exact Nat.one_pos
  exact (d.size_contr 0 hp).trans (congrArg sl.size (getElem_zero_of_eq_singleton hlc hp))

/-- Moving along one index changes nothing but the position read. -/
private theorem val_congr {s : Shape} (j : s.Idx) (p q : Nat) (hp : p < s.rank) (hq : q < s.rank) (h : p = q) :
    (j ⟨p, hp⟩).val = (j ⟨q, hq⟩).val := by
  subst h; rfl

/-- No batch axis and one free axis on the left: on that axis the left operand reads the result's first coordinate. -/
theorem lhsIdx_val_nonContr {sl sr so : Shape} (d : DotDims sl sr so) (hlb : d.lhsBatch = [])
    {a : Fin sl.rank} (hln : d.lhsNonContracting = [a]) (j : so.Idx) (k : d.contr.Idx) (h0 : 0 < so.rank) :
    (d.lhsIdx j k a).val = (j ⟨0, h0⟩).val := by
  have hb : a ∉ d.lhsBatch := by rw [hlb]; exact List.not_mem_nil
  have hn : a ∈ d.lhsNonContracting := by rw [hln]; exact List.mem_singleton.mpr rfl
  unfold DotDims.lhsIdx
  rw [dif_neg hb, dif_pos hn]
  simp only [Fin.val_cast]
  exact val_congr j _ _ _ _ (by simp [hlb, hln])

/-- No batch axis and one free axis on each side: on its free axis the right operand reads the result's second
    coordinate (the result lists the left operand's free axis first). -/
theorem rhsIdx_val_nonContr {sl sr so : Shape} (d : DotDims sl sr so) (hlb : d.lhsBatch = []) (hrb : d.rhsBatch = [])
    {al : Fin sl.rank} (hln : d.lhsNonContracting = [al]) {a : Fin sr.rank} (hrn : d.rhsNonContracting = [a])
    (j : so.Idx) (k : d.contr.Idx) (h1 : 1 < so.rank) :
    (d.rhsIdx j k a).val = (j ⟨1, h1⟩).val := by
  have hb : a ∉ d.rhsBatch := by rw [hrb]; exact List.not_mem_nil
  have hn : a ∈ d.rhsNonContracting := by rw [hrn]; exact List.mem_singleton.mpr rfl
  unfold DotDims.rhsIdx
  rw [dif_neg hb, dif_pos hn]
  simp only [Fin.val_cast]
  exact val_congr j _ _ _ _ (by simp [hlb, hln, hrn])

/-! ## The contraction sum as a sum over the contracted coordinate -/

/-- Rows times columns: the contraction sum at (a, b) is the sum over k of l (a, k) · r (k, b). -/
theorem sum_rows_cols {M K N : Nat} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (l : (⟨2, ![M, K]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 a k) * r (ix2 k b) := by
  have hr : d.contr.rank = 1 := contr_rank_one d hlc
  have hs : d.contr.size ⟨0, by omega⟩ = K := contr_size_zero d hlc
  -- re-index the sum by the one contraction coordinate, then identify each operand's index axis by axis
  rw [← Equiv.sum_comp (contrEquiv1 d K hr hs).symm]
  refine Finset.sum_congr rfl fun k _ => ?_
  have hl : d.lhsIdx (ix2 a b) ((contrEquiv1 d K hr hs).symm k) = ix2 a k := by
    funext ax
    match ax with
    | ⟨0, _⟩ => exact Fin.ext (lhsIdx_val_nonContr d hlb hln _ _ Nat.zero_lt_two)
    | ⟨1, _⟩ => exact Fin.ext ((d.lhsIdx_val_of_single hlc _ _).trans (contrEquiv1_symm_val d K hr hs k))
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-- Transposed-left product: the contraction sum at (a, b) is the sum over k of l (k, a) · r (k, b). -/
theorem sum_cols_cols {M K N : Nat} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (l : (⟨2, ![K, M]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 k a) * r (ix2 k b) := by
  have hr : d.contr.rank = 1 := contr_rank_one d hlc
  have hs : d.contr.size ⟨0, by omega⟩ = K := contr_size_zero d hlc
  rw [← Equiv.sum_comp (contrEquiv1 d K hr hs).symm]
  refine Finset.sum_congr rfl fun k _ => ?_
  -- the left operand's first axis is the contracted one, its second axis carries the result's row
  have hl : d.lhsIdx (ix2 a b) ((contrEquiv1 d K hr hs).symm k) = ix2 k a := by
    funext ax
    match ax with
    | ⟨0, _⟩ => exact Fin.ext ((d.lhsIdx_val_of_single hlc _ _).trans (contrEquiv1_symm_val d K hr hs k))
    | ⟨1, _⟩ => exact Fin.ext (lhsIdx_val_nonContr d hlb hln _ _ Nat.zero_lt_two)
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-! ## The two products at an index -/

/-- The host's product, rows times columns, at an index. -/
theorem dotGeneral_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (sum_rows_cols d hlb hrb hlc hrc hln hrn l r a b)

/-- The kernel's product into the zero accumulator, rows times columns, at an index. -/
theorem matmul_zero_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (sum_rows_cols d hlb hrb hlc hrc hln hrn l r a b)

/-- The kernel's transposed-left product into the zero accumulator, at an index. -/
theorem matmul_zero_cols_cols {M K N : Nat} {φ₁ φ₂ : FTy} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (prec : Option ContractPrecision)
    (l : FVec Ideal ⟨2, ![K, M]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 k a) * r (ix2 k b) :=
  (Ideal.matmul_constant_zero_apply d prec l r (ix2 a b)).trans (sum_cols_cols d hlb hrb hlc hrc hln hrn l r a b)

end Cert.DotPlain

end
-- ==== Proof.RegionProduct.lean ====
/- The two matrix-product regions, from blocks to the whole array.

   Each of the 20 grid points takes 5000 consecutive rows of the features and of the norm column and the whole
   weight matrix, and writes the 5000 rows of the product: row r of block t is row 5000·t + r of the array, so the
   blocks tile the result and the array ends at the scaled product of the arrays the region was entered with. -/
import proofs.«155027_j12412455486167_1_alg».proof.Proof.Gen.KernelIdeal.Frame
import proofs.«155027_j12412455486167_1_alg».proof.Proof.Spec
import proofs.«155027_j12412455486167_1_alg».proof.Proof.LibDotPlain
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Cert.GraphConv Idealize.ShloMosaic Idealize.ShloMosaic.TcCoe Idealize.ShloMosaic.ValueIdx Idealize.SL.Sem
open Idealize.ShloMosaic.Pipeline (Dat Cfg Window)
open scoped BigOperators

/-! ## Layout: a column broadcast along its rows, and the zero offsets -/

/-- A one-column array broadcast along its rows reads, at (p, k), the column's entry at row p. -/
theorem broadcastTo_col_apply {α : Type} {a b : ℕ} (v : (⟨2, ![a, 1]⟩ : Shape).Idx → α)
    (h : (⟨2, ![a, 1]⟩ : Shape).Broadcasts ⟨2, ![a, b]⟩) (p : Fin a) (k : Fin b) :
    broadcastTo ⟨2, ![a, b]⟩ v h (ix2 p k) = v (ix2 p (0 : Fin 1)) := by
  refine broadcastTo_apply v h (ix2 p k) (ix2 p (0 : Fin 1)) fun ax => ?_
  match ax with
  | ⟨0, _⟩ =>
    show p.val = if a = 1 then 0 else p.val
    split
    · have := p.isLt; omega
    · rfl
  | ⟨1, _⟩ => rfl

/-- The offsets of a whole-block access are zero on both axes. -/
theorem zeros2 : (![0, 0] : Fin 2 → Nat) = fun _ => 0 := funext fun a => by fin_cases a <;> rfl

/-! ## The first product (128 features) -/

/-- The body of the first product at (p, q): row p of the feature block scaled by the norm at p, against column q
    of the weights. The narrowing of both operands is the identity on extended reals and the accumulator is zero. -/
theorem pay128_apply (x0 : Vec Ideal S5000x128 .f32) (x1 : Vec Ideal S5000x1 .f32) (x2 : Vec Ideal S128x64 .f32)
    (p : Fin 5000) (q : Fin 64) :
    k0_pay1 (F := Ideal) x0 x1 x2 (ix2 p q)
      = ∑ k : Fin 128, (x0 (ix2 p k) * x1 (ix2 p (0 : Fin 1))) * x2 (ix2 k q) := by
  unfold k0_pay1
  refine (Cert.DotPlain.matmul_zero_rows_cols dot_S5000x128_S128x64_S5000x64_1_0_0_1_n_n rfl rfl rfl rfl rfl rfl none _ _ p q).trans ?_
  refine Finset.sum_congr rfl fun k _ => ?_
  rw [truncf_apply, truncf_apply, mulf_apply, shapeCast_self, broadcastTo_col_apply]

/-- The index maps of the first product, decided over the 20 points: the feature, norm and result windows sit at
    block row t, block column 0; the weight window at block (0, 0). -/
theorem idx128 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

-- the buffer contents a region is entered with: every lemma here holds for any such contents
variable (V : (c : Dev nD) → (b : Ref sig .tc) → Buf (Elt Ideal) ((c : Thread nD τ).loc b))

/-- What point t writes back is block t of the scaled product of the three operand arrays. -/
theorem product128_flushed (c : Dev nD) (t : Fin cfg0.N) :
    (dat0 (F := Ideal) V c).flushed 3 t
      = ((cfg0.win 3).blk t).view.read (Elt Ideal) (scaledProduct128 (V c main_arg0) (V c main_v11) (V c main_arg3)) := by
  show (cfg0.win 3).cut (grid0.coords t) ((dat0 V c).after 3 t) = _
  rw [after0_3]
  unfold out0_3
  rw [View.canon_unit_zero zeros2]
  simp only [View.ld_unit_zero (S := S5000x128) zeros2, View.ld_unit_zero (S := S5000x1) zeros2,
    View.ld_unit_zero (S := S128x64) zeros2]
  obtain ⟨e00, e01, e10, e11, e20, e21, e30, e31⟩ := idx128 t
  funext j
  obtain ⟨p, q, rfl⟩ : ∃ (p : Fin 5000) (q : Fin 64), j = ix2 p q := ⟨j 0, j 1, eq_ix2 j⟩
  show k0_pay1 (F := Ideal) (iblk0 V c 0 t) (iblk0 V c 1 t) (iblk0 V c 2 t) (ix2 p q)
      = scaledProduct128 (V c main_arg0) (V c main_v11) (V c main_arg3) (((cfg0.win 3).blk t).view.emb (ix2 p q))
  refine (pay128_apply _ _ _ p q).trans ?_
  unfold scaledProduct128
  refine Finset.sum_congr rfl fun k _ => ?_
  -- each operand block, read where the result's rectangle says
  have h0 : iblk0 (F := Ideal) V c 0 t (ix2 p k)
      = V c main_arg0 (ix2 ((((cfg0.win 3).blk t).view.emb (ix2 p q)) 0) k) := by
    show V c main_arg0 (((cfg0.win 0).blk t).view.emb (ix2 p k)) = _
    refine congrArg (V c main_arg0) (funext fun a => Fin.ext ?_)
    match a with
    | ⟨0, _⟩ =>
      show win0_0.index t (0 : Fin 2) * 5000 + 1 * p.val = win0_3.index t (0 : Fin 2) * 5000 + 1 * p.val
      omega
    | ⟨1, _⟩ =>
      show win0_0.index t (1 : Fin 2) * 128 + 1 * k.val = k.val
      omega
  have h1 : iblk0 (F := Ideal) V c 1 t (ix2 p (0 : Fin 1))
      = V c main_v11 (ix2 ((((cfg0.win 3).blk t).view.emb (ix2 p q)) 0) (0 : Fin 1)) := by
    show V c main_v11 (((cfg0.win 1).blk t).view.emb (ix2 p (0 : Fin 1))) = _
    refine congrArg (V c main_v11) (funext fun a => Fin.ext ?_)
    match a with
    | ⟨0, _⟩ =>
      show win0_1.index t (0 : Fin 2) * 5000 + 1 * p.val = win0_3.index t (0 : Fin 2) * 5000 + 1 * p.val
      omega
    | ⟨1, _⟩ =>
      show win0_1.index t (1 : Fin 2) * 1 + 1 * 0 = 0
      omega
  have h2 : iblk0 (F := Ideal) V c 2 t (ix2 k q)
      = V c main_arg3 (ix2 k ((((cfg0.win 3).blk t).view.emb (ix2 p q)) 1)) := by
    show V c main_arg3 (((cfg0.win 2).blk t).view.emb (ix2 k q)) = _
    refine congrArg (V c main_arg3) (funext fun a => Fin.ext ?_)
    match a with
    | ⟨0, _⟩ =>
      show win0_2.index t (0 : Fin 2) * 128 + 1 * k.val = k.val
      omega
    | ⟨1, _⟩ =>
      show win0_2.index t (1 : Fin 2) * 64 + 1 * q.val = win0_3.index t (1 : Fin 2) * 64 + 1 * q.val
      omega
  rw [h0, h1, h2]

/-- An index of the result array is in point t's block iff each coordinate is in the block's range on its axis. -/
theorem mem_blk128 (t : Fin cfg0.N) (i : S100000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v17).slice (win0_3.rect t)).set ↔ _
  rw [View.set_slice_whole, Rect.mem_set_unit]
  exact Iff.rfl

/-- The blocks tile the result: row r lies in the block of point r / 5000. -/
theorem product128_cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have ht : (i 0).val / 5000 < cfg0.N := by show (i 0).val / 5000 < 20; omega
  have e30 : win0_3.index ⟨(i 0).val / 5000, ht⟩ (0 : Fin 2) = (i 0).val / 5000 := (idx128 ⟨_, ht⟩).2.2.2.2.2.2.1
  have e31 : win0_3.index ⟨(i 0).val / 5000, ht⟩ (1 : Fin 2) = 0 := (idx128 ⟨_, ht⟩).2.2.2.2.2.2.2
  refine ⟨⟨(i 0).val / 5000, ht⟩, flush0_3 _, ?_⟩
  rw [mem_blk128]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    omega
  | ⟨1, _⟩ =>
    show win0_3.index ⟨(i 0).val / 5000, ht⟩ (1 : Fin 2) * 64 ≤ (i 1).val
      ∧ (i 1).val < win0_3.index ⟨(i 0).val / 5000, ht⟩ (1 : Fin 2) * 64 + 64
    omega

/-! ## The second product (64 features) -/

/-- The body of the second product at (p, q): row p of the feature block scaled by the norm at p, against column q
    of the weights. -/
theorem pay64_apply (x0 : Vec Ideal S5000x64 .f32) (x1 : Vec Ideal S5000x1 .f32) (x2 : Vec Ideal S64x64 .f32)
    (p : Fin 5000) (q : Fin 64) :
    k2_pay1 (F := Ideal) x0 x1 x2 (ix2 p q)
      = ∑ k : Fin 64, (x0 (ix2 p k) * x1 (ix2 p (0 : Fin 1))) * x2 (ix2 k q) := by
  unfold k2_pay1
  refine (Cert.DotPlain.matmul_zero_rows_cols dot_S5000x64_S64x64_S5000x64_1_0_0_1_n_n rfl rfl rfl rfl rfl rfl none _ _ p q).trans ?_
  refine Finset.sum_congr rfl fun k _ => ?_
  rw [truncf_apply, truncf_apply, mulf_apply, shapeCast_self, shapeCast_self, broadcastTo_col_apply]

/-- The index maps of the second product, decided over the 20 points: the feature, norm and result windows sit at
    block row t, block column 0; the weight window at block (0, 0). -/
theorem idx64 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is block t of the scaled product of the three operand arrays. -/
theorem product64_flushed (c : Dev nD) (t : Fin cfg2.N) :
    (dat2 (F := Ideal) V c).flushed 3 t
      = ((cfg2.win 3).blk t).view.read (Elt Ideal) (scaledProduct64 (V c main_v29) (V c main_v11) (V c main_arg5)) := by
  show (cfg2.win 3).cut (grid2.coords t) ((dat2 V c).after 3 t) = _
  rw [after2_3]
  unfold out2_3
  rw [View.canon_unit_zero zeros2]
  simp only [View.ld_unit_zero (S := S5000x64) zeros2, View.ld_unit_zero (S := S5000x1) zeros2,
    View.ld_unit_zero (S := S64x64) zeros2]
  obtain ⟨e00, e01, e10, e11, e20, e21, e30, e31⟩ := idx64 t
  funext j
  obtain ⟨p, q, rfl⟩ : ∃ (p : Fin 5000) (q : Fin 64), j = ix2 p q := ⟨j 0, j 1, eq_ix2 j⟩
  show k2_pay1 (F := Ideal) (iblk2 V c 0 t) (iblk2 V c 1 t) (iblk2 V c 2 t) (ix2 p q)
      = scaledProduct64 (V c main_v29) (V c main_v11) (V c main_arg5) (((cfg2.win 3).blk t).view.emb (ix2 p q))
  refine (pay64_apply _ _ _ p q).trans ?_
  unfold scaledProduct64
  refine Finset.sum_congr rfl fun k _ => ?_
  -- each operand block, read where the result's rectangle says
  have h0 : iblk2 (F := Ideal) V c 0 t (ix2 p k)
      = V c main_v29 (ix2 ((((cfg2.win 3).blk t).view.emb (ix2 p q)) 0) k) := by
    show V c main_v29 (((cfg2.win 0).blk t).view.emb (ix2 p k)) = _
    refine congrArg (V c main_v29) (funext fun a => Fin.ext ?_)
    match a with
    | ⟨0, _⟩ =>
      show win2_0.index t (0 : Fin 2) * 5000 + 1 * p.val = win2_3.index t (0 : Fin 2) * 5000 + 1 * p.val
      omega
    | ⟨1, _⟩ =>
      show win2_0.index t (1 : Fin 2) * 64 + 1 * k.val = k.val
      omega
  have h1 : iblk2 (F := Ideal) V c 1 t (ix2 p (0 : Fin 1))
      = V c main_v11 (ix2 ((((cfg2.win 3).blk t).view.emb (ix2 p q)) 0) (0 : Fin 1)) := by
    show V c main_v11 (((cfg2.win 1).blk t).view.emb (ix2 p (0 : Fin 1))) = _
    refine congrArg (V c main_v11) (funext fun a => Fin.ext ?_)
    match a with
    | ⟨0, _⟩ =>
      show win2_1.index t (0 : Fin 2) * 5000 + 1 * p.val = win2_3.index t (0 : Fin 2) * 5000 + 1 * p.val
      omega
    | ⟨1, _⟩ =>
      show win2_1.index t (1 : Fin 2) * 1 + 1 * 0 = 0
      omega
  have h2 : iblk2 (F := Ideal) V c 2 t (ix2 k q)
      = V c main_arg5 (ix2 k ((((cfg2.win 3).blk t).view.emb (ix2 p q)) 1)) := by
    show V c main_arg5 (((cfg2.win 2).blk t).view.emb (ix2 k q)) = _
    refine congrArg (V c main_arg5) (funext fun a => Fin.ext ?_)
    match a with
    | ⟨0, _⟩ =>
      show win2_2.index t (0 : Fin 2) * 64 + 1 * k.val = k.val
      omega
    | ⟨1, _⟩ =>
      show win2_2.index t (1 : Fin 2) * 64 + 1 * q.val = win2_3.index t (1 : Fin 2) * 64 + 1 * q.val
      omega
  rw [h0, h1, h2]

/-- An index of the result array is in point t's block iff each coordinate is in the block's range on its axis. -/
theorem mem_blk64 (t : Fin cfg2.N) (i : S100000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v30).slice (win2_3.rect t)).set ↔ _
  rw [View.set_slice_whole, Rect.mem_set_unit]
  exact Iff.rfl

/-- The blocks tile the result: row r lies in the block of point r / 5000. -/
theorem product64_cover (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have ht : (i 0).val / 5000 < cfg2.N := by show (i 0).val / 5000 < 20; omega
  have e30 : win2_3.index ⟨(i 0).val / 5000, ht⟩ (0 : Fin 2) = (i 0).val / 5000 := (idx64 ⟨_, ht⟩).2.2.2.2.2.2.1
  have e31 : win2_3.index ⟨(i 0).val / 5000, ht⟩ (1 : Fin 2) = 0 := (idx64 ⟨_, ht⟩).2.2.2.2.2.2.2
  refine ⟨⟨(i 0).val / 5000, ht⟩, flush2_3 _, ?_⟩
  rw [mem_blk64]
  intro a
  match a with
  | ⟨0, _⟩ =>
    show win2_3.index ⟨(i 0).val / 5000, ht⟩ (0 : Fin 2) * 5000 ≤ (i 0).val
      ∧ (i 0).val < win2_3.index ⟨(i 0).val / 5000, ht⟩ (0 : Fin 2) * 5000 + 5000
    omega
  | ⟨1, _⟩ =>
    show win2_3.index ⟨(i 0).val / 5000, ht⟩ (1 : Fin 2) * 64 ≤ (i 1).val
      ∧ (i 1).val < win2_3.index ⟨(i 0).val / 5000, ht⟩ (1 : Fin 2) * 64 + 64
    omega

/-! ## The two regions' result arrays -/

/-- The first product region (128 features) leaves its result array at the scaled product of its three operand arrays. -/
theorem product128_final (c : Dev nD) :
    (dat0 (F := Ideal) V c).arrAt 3 cfg0.N = scaledProduct128 (V c main_arg0) (V c main_v11) (V c main_arg3) :=
  (dat0 (F := Ideal) V c).arrAt_eq_of_cover 3 (scaledProduct128 (V c main_arg0) (V c main_v11) (V c main_arg3))
    (fun t _ => product128_flushed V c t) product128_cover

/-- The second product region (64 features) likewise. -/
theorem product64_final (c : Dev nD) :
    (dat2 (F := Ideal) V c).arrAt 3 cfg2.N = scaledProduct64 (V c main_v29) (V c main_v11) (V c main_arg5) :=
  (dat2 (F := Ideal) V c).arrAt_eq_of_cover 3 (scaledProduct64 (V c main_v29) (V c main_v11) (V c main_arg5))
    (fun t _ => product64_flushed V c t) product64_cover

end Cert.KernelIdeal.RegionValue

end
-- ==== Proof.RegionClose.lean ====
/- The two closing regions (scale by the destination norm, add the bias; the first also takes the maximum with 0),
   from blocks to the whole array.

   Each of the 20 grid points takes 5000 consecutive rows of the aggregate and of the norm column and the whole bias
   row, and writes the same 5000 rows of the result: the blocks tile the result, which ends at the closing step of the
   arrays the region was entered with, entry by entry. -/
import proofs.«155027_j12412455486167_1_alg».proof.Proof.Gen.KernelIdeal.Frame
import proofs.«155027_j12412455486167_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Cert.GraphConv Idealize.ShloMosaic Idealize.ShloMosaic.TcCoe Idealize.ShloMosaic.ValueIdx Idealize.SL.Sem
open Idealize.ShloMosaic.Pipeline (Dat Cfg Window)
open scoped BigOperators

/-- The two spellings of the zero offsets agree. -/
private theorem zeroOffsets : (![0, 0] : Fin 2 → Nat) = fun _ => 0 := funext fun a => by fin_cases a <;> rfl

/-! ## The closing step on one block, entry by entry -/

/-- The norm column of a block, spread along the rows, read at (p, q) is its entry (p, 0). -/
private theorem spreadColumn_apply (x1 : FVec Ideal S5000x1 .f32) (p : Fin 5000) (q : Fin 64) :
    broadcastTo S5000x64 x1 broadcasts_S5000x1_S5000x64 (ix2 p q) = x1 (ix2 p 0) :=
  broadcastTo_apply x1 broadcasts_S5000x1_S5000x64 (ix2 p q) (ix2 p 0) fun a =>
    match a with
    | ⟨0, _⟩ => rfl
    | ⟨1, _⟩ => rfl

/-- The bias row, spread down the columns, read at (p, q) is its entry (0, q). -/
private theorem spreadRow_apply (x2 : FVec Ideal S1x64 .f32) (p : Fin 5000) (q : Fin 64) :
    broadcastTo S5000x64 x2 broadcasts_S1x64_S5000x64 (ix2 p q) = x2 (ix2 0 q) :=
  broadcastTo_apply x2 broadcasts_S1x64_S5000x64 (ix2 p q) (ix2 0 q) fun a =>
    match a with
    | ⟨0, _⟩ => rfl
    | ⟨1, _⟩ => rfl

/-- The first closing body at (p, q): the aggregate's entry times the norm of row p, plus the bias at q, and the
    maximum with 0. -/
private theorem closeReluBody_apply (x0 : Vec Ideal S5000x64 .f32) (x1 : Vec Ideal S5000x1 .f32) (x2 : Vec Ideal S1x64 .f32)
    (p : Fin 5000) (q : Fin 64) :
    k1_pay1 x0 x1 x2 (ix2 p q)
      = max (x0 (ix2 p q) * x1 (ix2 p 0) + x2 (ix2 0 q)) (Ideal.ofBits .f32 0x00000000#32) := by
  unfold k1_pay1
  simp only [shapeCast_self]
  rw [maximumf_apply, addf_apply, mulf_apply, broadcast_apply, spreadColumn_apply, spreadRow_apply]
  rfl

/-- The closing step with the maximum at an entry, from the three entries it reads, wherever they were found:
    the aggregate at the same place, the norm in the same row, the bias in the same column. -/
private theorem closeReluEntry (A : FVec Ideal S100000x64 .f32) (n : FVec Ideal S100000x1 .f32) (b : FVec Ideal S1x64 .f32)
    (i0 i3 : S100000x64.Idx) (i1 : S100000x1.Idx) (i2 : S1x64.Idx)
    (h00 : (i0 0).val = (i3 0).val) (h01 : (i0 1).val = (i3 1).val)
    (h10 : (i1 0).val = (i3 0).val) (h21 : (i2 1).val = (i3 1).val) :
    max (A i0 * n i1 + b i2) (Ideal.ofBits .f32 0x00000000#32) = scaleBiasRelu A n b i3 := by
  have e0 : i0 = i3 := Shape.idx_ext₂ h00 h01
  have e1 : i1 = ix2 (i3 0) 0 := Shape.idx_ext₂ h10 (by have := idx2_lt1 i1; show (i1 1).val = 0; omega)
  have e2 : i2 = ix2 0 (i3 1) := Shape.idx_ext₂ (by have := idx2_lt0 i2; show (i2 0).val = 0; omega) h21
  rw [e0, e1, e2]; rfl

/-- The last closing body at (p, q): the aggregate's entry times the norm of row p, plus the bias at q. -/
private theorem closeBody_apply (x0 : Vec Ideal S5000x64 .f32) (x1 : Vec Ideal S5000x1 .f32) (x2 : Vec Ideal S1x64 .f32)
    (p : Fin 5000) (q : Fin 64) :
    k3_pay1 x0 x1 x2 (ix2 p q) = x0 (ix2 p q) * x1 (ix2 p 0) + x2 (ix2 0 q) := by
  unfold k3_pay1
  simp only [shapeCast_self]
  rw [addf_apply, mulf_apply, spreadColumn_apply, spreadRow_apply]

/-- The closing step at an entry, from the three entries it reads, wherever they were found: the aggregate at the
    same place, the norm in the same row, the bias in the same column. -/
private theorem closeEntry (A : FVec Ideal S100000x64 .f32) (n : FVec Ideal S100000x1 .f32) (b : FVec Ideal S1x64 .f32)
    (i0 i3 : S100000x64.Idx) (i1 : S100000x1.Idx) (i2 : S1x64.Idx)
    (h00 : (i0 0).val = (i3 0).val) (h01 : (i0 1).val = (i3 1).val)
    (h10 : (i1 0).val = (i3 0).val) (h21 : (i2 1).val = (i3 1).val) :
    A i0 * n i1 + b i2 = scaleBias A n b i3 := by
  have e0 : i0 = i3 := Shape.idx_ext₂ h00 h01
  have e1 : i1 = ix2 (i3 0) 0 := Shape.idx_ext₂ h10 (by have := idx2_lt1 i1; show (i1 1).val = 0; omega)
  have e2 : i2 = ix2 0 (i3 1) := Shape.idx_ext₂ (by have := idx2_lt0 i2; show (i2 0).val = 0; omega) h21
  rw [e0, e1, e2]; rfl

-- the buffer contents a region is entered with: every lemma here holds for any such contents
variable (V : (c : Dev nD) → (b : Ref sig .tc) → Buf (Elt Ideal) ((c : Thread nD τ).loc b))

/-! ## The first closing region: from blocks to the array -/

/-- The printed index maps of the first closing region, decided over its 20 points: the aggregate's, the norm column's
    and the result's block is the point's own on the rows and the only one on the columns; the bias row's is the one
    block there is. -/
private theorem closeRelu_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the closing step of the arrays the region was entered with. -/
private theorem closeRelu_flushed (c : Dev nD) (t : Fin cfg1.N) :
    (dat1 (F := Ideal) V c).flushed 3 t
      = ((cfg1.win 3).blk t).view.read (Elt Ideal) (scaleBiasRelu (V c main_v27) (V c main_v16) (V c main_v28)) := by
  show (cfg1.win 3).cut (grid1.coords t) ((dat1 V c).after 3 t) = _
  rw [after1_3]
  unfold out1_3
  rw [View.canon_unit_zero zeroOffsets]
  simp only [View.ld_unit_zero (S := S5000x64) zeroOffsets, View.ld_unit_zero (S := S5000x1) zeroOffsets,
    View.ld_unit_zero (S := S1x64) zeroOffsets]
  obtain ⟨e00, e01, e10, e11, e20, e21, e30, e31⟩ := closeRelu_index t
  refine funext fun (j : S5000x64.Idx) => ?_
  obtain ⟨p, q, rfl⟩ : ∃ (p : Fin 5000) (q : Fin 64), j = ix2 p q := ⟨j 0, j 1, eq_ix2 j⟩
  show k1_pay1 (iblk1 V c 0 t) (iblk1 V c 1 t) (iblk1 V c 2 t) (ix2 p q)
    = scaleBiasRelu (V c main_v27) (V c main_v16) (V c main_v28) (((cfg1.win 3).blk t).view.emb (ix2 p q))
  rw [closeReluBody_apply]
  exact closeReluEntry (V c main_v27) (V c main_v16) (V c main_v28) (((cfg1.win 0).blk t).view.emb (ix2 p q))
    (((cfg1.win 3).blk t).view.emb (ix2 p q)) (((cfg1.win 1).blk t).view.emb (ix2 p 0))
    (((cfg1.win 2).blk t).view.emb (ix2 0 q))
    (by show win1_0.index t (0 : Fin 2) * 5000 + 1 * p.val = win1_3.index t (0 : Fin 2) * 5000 + 1 * p.val; omega)
    (by show win1_0.index t (1 : Fin 2) * 64 + 1 * q.val = win1_3.index t (1 : Fin 2) * 64 + 1 * q.val; omega)
    (by show win1_1.index t (0 : Fin 2) * 5000 + 1 * p.val = win1_3.index t (0 : Fin 2) * 5000 + 1 * p.val; omega)
    (by show win1_2.index t (1 : Fin 2) * 64 + 1 * q.val = win1_3.index t (1 : Fin 2) * 64 + 1 * q.val; omega)

/-- An index of the result is in point t's block iff each coordinate is in the block's range on its axis. -/
private theorem closeRelu_mem_blk (t : Fin cfg1.N) (i : S100000x64.Idx) :
    i ∈ ((cfg1.win 3).blk t).view.set
      ↔ ∀ a : Fin 2, win1_3.index t a * S5000x64.size a ≤ (i a).val
          ∧ (i a).val < win1_3.index t a * S5000x64.size a + S5000x64.size a := by
  show i ∈ ((View.whole main_v29).slice (win1_3.rect t)).set ↔ _
  rw [View.set_slice_whole, Rect.mem_set_unit]
  exact Iff.rfl

/-- The 20 blocks of 5000 rows tile the result: row r is in the block of point r / 5000. -/
private theorem closeRelu_cover (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 20 := by decide
  let t : Fin cfg1.N := ⟨(i 0).val / 5000, by rw [hN]; omega⟩
  have ht : t.val = (i 0).val / 5000 := rfl
  obtain ⟨e00, e01, e10, e11, e20, e21, e30, e31⟩ := closeRelu_index t
  refine ⟨t, flush1_3 t, ?_⟩
  rw [closeRelu_mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- The first closing region leaves its result array at the closing step with the maximum with 0. -/
theorem closeRelu_final (c : Dev nD) :
    (dat1 (F := Ideal) V c).arrAt 3 cfg1.N = scaleBiasRelu (V c main_v27) (V c main_v16) (V c main_v28) :=
  (dat1 (F := Ideal) V c).arrAt_eq_of_cover 3 (scaleBiasRelu (V c main_v27) (V c main_v16) (V c main_v28))
    (fun t _ => closeRelu_flushed V c t) closeRelu_cover

/-! ## The last closing region: from blocks to the array -/

/-- The printed index maps of the last closing region, decided over its 20 points: the aggregate's, the norm column's
    and the result's block is the point's own on the rows and the only one on the columns; the bias row's is the one
    block there is. -/
private theorem close_index : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point t writes back is block t of the closing step of the arrays the region was entered with. -/
private theorem close_flushed (c : Dev nD) (t : Fin cfg3.N) :
    (dat3 (F := Ideal) V c).flushed 3 t
      = ((cfg3.win 3).blk t).view.read (Elt Ideal) (scaleBias (V c main_v40) (V c main_v16) (V c main_v41)) := by
  show (cfg3.win 3).cut (grid3.coords t) ((dat3 V c).after 3 t) = _
  rw [after3_3]
  unfold out3_3
  rw [View.canon_unit_zero zeroOffsets]
  simp only [View.ld_unit_zero (S := S5000x64) zeroOffsets, View.ld_unit_zero (S := S5000x1) zeroOffsets,
    View.ld_unit_zero (S := S1x64) zeroOffsets]
  obtain ⟨e00, e01, e10, e11, e20, e21, e30, e31⟩ := close_index t
  refine funext fun (j : S5000x64.Idx) => ?_
  obtain ⟨p, q, rfl⟩ : ∃ (p : Fin 5000) (q : Fin 64), j = ix2 p q := ⟨j 0, j 1, eq_ix2 j⟩
  show k3_pay1 (iblk3 V c 0 t) (iblk3 V c 1 t) (iblk3 V c 2 t) (ix2 p q)
    = scaleBias (V c main_v40) (V c main_v16) (V c main_v41) (((cfg3.win 3).blk t).view.emb (ix2 p q))
  rw [closeBody_apply]
  exact closeEntry (V c main_v40) (V c main_v16) (V c main_v41) (((cfg3.win 0).blk t).view.emb (ix2 p q))
    (((cfg3.win 3).blk t).view.emb (ix2 p q)) (((cfg3.win 1).blk t).view.emb (ix2 p 0))
    (((cfg3.win 2).blk t).view.emb (ix2 0 q))
    (by show win3_0.index t (0 : Fin 2) * 5000 + 1 * p.val = win3_3.index t (0 : Fin 2) * 5000 + 1 * p.val; omega)
    (by show win3_0.index t (1 : Fin 2) * 64 + 1 * q.val = win3_3.index t (1 : Fin 2) * 64 + 1 * q.val; omega)
    (by show win3_1.index t (0 : Fin 2) * 5000 + 1 * p.val = win3_3.index t (0 : Fin 2) * 5000 + 1 * p.val; omega)
    (by show win3_2.index t (1 : Fin 2) * 64 + 1 * q.val = win3_3.index t (1 : Fin 2) * 64 + 1 * q.val; omega)

/-- An index of the result is in point t's block iff each coordinate is in the block's range on its axis. -/
private theorem close_mem_blk (t : Fin cfg3.N) (i : S100000x64.Idx) :
    i ∈ ((cfg3.win 3).blk t).view.set
      ↔ ∀ a : Fin 2, win3_3.index t a * S5000x64.size a ≤ (i a).val
          ∧ (i a).val < win3_3.index t a * S5000x64.size a + S5000x64.size a := by
  show i ∈ ((View.whole main_v42).slice (win3_3.rect t)).set ↔ _
  rw [View.set_slice_whole, Rect.mem_set_unit]
  exact Iff.rfl

/-- The 20 blocks of 5000 rows tile the result: row r is in the block of point r / 5000. -/
private theorem close_cover (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  have hN : cfg3.N = 20 := by decide
  let t : Fin cfg3.N := ⟨(i 0).val / 5000, by rw [hN]; omega⟩
  have ht : t.val = (i 0).val / 5000 := rfl
  obtain ⟨e00, e01, e10, e11, e20, e21, e30, e31⟩ := close_index t
  refine ⟨t, flush3_3 t, ?_⟩
  rw [close_mem_blk]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 64 ≤ (i 1).val ∧ (i 1).val < win3_3.index t (1 : Fin 2) * 64 + 64; omega

/-- The last closing region leaves its result array at the closing step. -/
theorem close_final (c : Dev nD) :
    (dat3 (F := Ideal) V c).arrAt 3 cfg3.N = scaleBias (V c main_v40) (V c main_v16) (V c main_v41) :=
  (dat3 (F := Ideal) V c).arrAt_eq_of_cover 3 (scaleBias (V c main_v40) (V c main_v16) (V c main_v41))
    (fun t _ => close_flushed V c t) close_cover

end Cert.KernelIdeal.RegionValue

end
-- ==== Proof.KernelFold.lean ====
/- The kernel program's result array, traced from the launch memory through the host stretches and the four regions.

   The contents at each boundary of the program are a fold from the launch memory: a host stretch applies its
   operations, a region replaces its output array by what its grid points write back and keeps everything else.
   Boundary by boundary, every array a later step reads is named as a function of the seven argument arrays: the two
   degree-norm columns after the first stretch; the scaled product after the first region; its aggregate and the bias
   row after the second stretch; the first layer's output after the second region; the second scaled product, its
   aggregate, and at the end the second layer's output. An array no step writes in between is carried unchanged. -/
import proofs.«155027_j12412455486167_1_alg».proof.Proof.Gen.KernelIdeal.Frame
import proofs.«155027_j12412455486167_1_alg».proof.Proof.Spec
import proofs.«155027_j12412455486167_1_alg».proof.Proof.RegionProduct
import proofs.«155027_j12412455486167_1_alg».proof.Proof.RegionClose
import Idealize.ShloMosaic.Lib.Pipeline.Value
import Idealize.ShloMosaic.Lib.ValueIdx
import Idealize.ShloMosaic.Lib.StableHlo.Run

set_option maxRecDepth 16384

noncomputable section

namespace Cert.KernelIdeal.Fold

open Cert.KernelIdeal Cert.KernelIdeal.Gen Cert.GraphConv Idealize.ShloMosaic Idealize.ShloMosaic.TcCoe Idealize.ShloMosaic.ValueIdx Idealize.SL.Sem
open Idealize.ShloMosaic.StableHlo

/-- A vector of 100000 values reshaped to a 100000×1 matrix is its column. -/
theorem shapeCast_col (n : FVec Ideal S100000 .f32) (h : S100000.ShapeCasts S100000x1) : shapeCast S100000x1 n h = col n := by
  funext j
  refine shapeCast_apply n h j (ix1 (j 0)) ?_
  have h1 : (j 1).val < 1 := (j 1).isLt
  rw [Shape.rowMajor_val_one, Shape.rowMajor_val_two]
  show (j 0).val = (j 0).val * 1 + (j 1).val
  omega

/-- A vector of 64 values reshaped to a 1×64 matrix is its row. -/
theorem shapeCast_row (b : FVec Ideal S64 .f32) (h : S64.ShapeCasts S1x64) : shapeCast S1x64 b h = row b := by
  funext j
  refine shapeCast_apply b h j (ix1 (j 1)) ?_
  have h0 : (j 0).val < 1 := (j 0).isLt
  rw [Shape.rowMajor_val_one, Shape.rowMajor_val_two]
  show (j 1).val = (j 0).val * 64 + (j 1).val
  omega

variable (m : (ℓ : Loc nD τ sig) → Buf (Elt Ideal) ℓ) (ρ : Dev nD → PrngReg)

theorem w1_arg0 (c : Dev nD) : W1 m ρ c (Proc.devRef .tc main_arg0) = (m ((c.tc : Thread nD τ).loc main_arg0)) :=
  (StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide))) : W1 m ρ c (Proc.devRef .tc main_arg0) = W0 m ρ c (Proc.devRef .tc main_arg0))

theorem w1_arg1 (c : Dev nD) : W1 m ρ c (Proc.devRef .tc main_arg1) = (m ((c.tc : Thread nD τ).loc main_arg1)) :=
  (StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide))) : W1 m ρ c (Proc.devRef .tc main_arg1) = W0 m ρ c (Proc.devRef .tc main_arg1))

theorem w1_arg2 (c : Dev nD) : W1 m ρ c (Proc.devRef .tc main_arg2) = (m ((c.tc : Thread nD τ).loc main_arg2)) :=
  (StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide))) : W1 m ρ c (Proc.devRef .tc main_arg2) = W0 m ρ c (Proc.devRef .tc main_arg2))

theorem w1_arg3 (c : Dev nD) : W1 m ρ c (Proc.devRef .tc main_arg3) = (m ((c.tc : Thread nD τ).loc main_arg3)) :=
  (StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide))) : W1 m ρ c (Proc.devRef .tc main_arg3) = W0 m ρ c (Proc.devRef .tc main_arg3))

theorem w1_arg4 (c : Dev nD) : W1 m ρ c (Proc.devRef .tc main_arg4) = (m ((c.tc : Thread nD τ).loc main_arg4)) :=
  (StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide))) : W1 m ρ c (Proc.devRef .tc main_arg4) = W0 m ρ c (Proc.devRef .tc main_arg4))

theorem w1_arg5 (c : Dev nD) : W1 m ρ c (Proc.devRef .tc main_arg5) = (m ((c.tc : Thread nD τ).loc main_arg5)) :=
  (StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide))) : W1 m ρ c (Proc.devRef .tc main_arg5) = W0 m ρ c (Proc.devRef .tc main_arg5))

theorem w1_arg6 (c : Dev nD) : W1 m ρ c (Proc.devRef .tc main_arg6) = (m ((c.tc : Thread nD τ).loc main_arg6)) :=
  (StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide))) : W1 m ρ c (Proc.devRef .tc main_arg6) = W0 m ρ c (Proc.devRef .tc main_arg6))

/-- The source-degree norm column, as the first host stretch leaves it. -/
theorem w1_v11 (c : Dev nD) : W1 m ρ c (Proc.devRef .tc main_v11) = (col (degNorm (m ((c.tc : Thread nD τ).loc main_arg1)))) := by
  have e : W1 m ρ c (Proc.devRef .tc main_v11) = shapeCast S100000x1 (degNorm (m ((c.tc : Thread nD τ).loc main_arg1))) shapeCasts_S100000_S100000x1 := by
    show StableHlo.after hostOps0 (W0 m ρ c) (Proc.devRef .tc main_v11) = _
    after_results
    rfl
  exact e.trans (shapeCast_col _ _)

/-- The destination-degree norm column, as the first host stretch leaves it. -/
theorem w1_v16 (c : Dev nD) : W1 m ρ c (Proc.devRef .tc main_v16) = (col (degNorm (m ((c.tc : Thread nD τ).loc main_arg2)))) := by
  have e : W1 m ρ c (Proc.devRef .tc main_v16) = shapeCast S100000x1 (degNorm (m ((c.tc : Thread nD τ).loc main_arg2))) shapeCasts_S100000_S100000x1 := by
    show StableHlo.after hostOps0 (W0 m ρ c) (Proc.devRef .tc main_v16) = _
    after_results
    rfl
  exact e.trans (shapeCast_col _ _)

/-- The first product region's result: the scaled product of the features, the source norm and the first weights. -/
theorem w2_v17 (c : Dev nD) : W2 m ρ c (Proc.devRef .tc main_v17) = (scaledProduct128 (m ((c.tc : Thread nD τ).loc main_arg0)) (col (degNorm (m ((c.tc : Thread nD τ).loc main_arg1)))) (m ((c.tc : Thread nD τ).loc main_arg3))) :=
  ((W2_arr m ρ c 3).trans (RegionValue.product128_final (V1 m ρ) c)).trans (by
    show scaledProduct128 (W1 m ρ c (Proc.devRef .tc main_arg0)) (W1 m ρ c (Proc.devRef .tc main_v11)) (W1 m ρ c (Proc.devRef .tc main_arg3)) = _
    rw [w1_arg0 m ρ c, w1_v11 m ρ c, w1_arg3 m ρ c])

theorem w2_arg1 (c : Dev nD) : W2 m ρ c (Proc.devRef .tc main_arg1) = (m ((c.tc : Thread nD τ).loc main_arg1)) :=
  (W2_of_ne m ρ c main_arg1 (by decide)).trans (w1_arg1 m ρ c)

theorem w2_arg2 (c : Dev nD) : W2 m ρ c (Proc.devRef .tc main_arg2) = (m ((c.tc : Thread nD τ).loc main_arg2)) :=
  (W2_of_ne m ρ c main_arg2 (by decide)).trans (w1_arg2 m ρ c)

theorem w2_arg4 (c : Dev nD) : W2 m ρ c (Proc.devRef .tc main_arg4) = (m ((c.tc : Thread nD τ).loc main_arg4)) :=
  (W2_of_ne m ρ c main_arg4 (by decide)).trans (w1_arg4 m ρ c)

theorem w2_arg5 (c : Dev nD) : W2 m ρ c (Proc.devRef .tc main_arg5) = (m ((c.tc : Thread nD τ).loc main_arg5)) :=
  (W2_of_ne m ρ c main_arg5 (by decide)).trans (w1_arg5 m ρ c)

theorem w2_arg6 (c : Dev nD) : W2 m ρ c (Proc.devRef .tc main_arg6) = (m ((c.tc : Thread nD τ).loc main_arg6)) :=
  (W2_of_ne m ρ c main_arg6 (by decide)).trans (w1_arg6 m ρ c)

theorem w2_v16 (c : Dev nD) : W2 m ρ c (Proc.devRef .tc main_v16) = (col (degNorm (m ((c.tc : Thread nD τ).loc main_arg2)))) :=
  (W2_of_ne m ρ c main_v16 (by decide)).trans (w1_v16 m ρ c)

theorem w2_v11 (c : Dev nD) : W2 m ρ c (Proc.devRef .tc main_v11) = (col (degNorm (m ((c.tc : Thread nD τ).loc main_arg1)))) :=
  ((W2_arr m ρ c 1).trans (((dat0 (V1 m ρ) c).arrAt_in 1 rfl _).trans (A_eq0 (V1 m ρ) c 1))).trans (w1_v11 m ρ c)

/-- The first aggregation and the first bias row, as the second host stretch leaves them. -/
theorem w3_v27 (c : Dev nD) : W3 m ρ c (Proc.devRef .tc main_v27) = (aggregate (m ((c.tc : Thread nD τ).loc main_arg1)) (m ((c.tc : Thread nD τ).loc main_arg2)) (scaledProduct128 (m ((c.tc : Thread nD τ).loc main_arg0)) (col (degNorm (m ((c.tc : Thread nD τ).loc main_arg1)))) (m ((c.tc : Thread nD τ).loc main_arg3)))) := by
  have e : W3 m ρ c (Proc.devRef .tc main_v27) = aggregate (W2 m ρ c (Proc.devRef .tc main_arg1)) (W2 m ρ c (Proc.devRef .tc main_arg2)) (W2 m ρ c (Proc.devRef .tc main_v17)) := by
    show StableHlo.after hostOps1 (W2 m ρ c) (Proc.devRef .tc main_v27) = _
    after_results
    rfl
  rw [e, w2_arg1 m ρ c, w2_arg2 m ρ c, w2_v17 m ρ c]

theorem w3_v28 (c : Dev nD) : W3 m ρ c (Proc.devRef .tc main_v28) = (row (m ((c.tc : Thread nD τ).loc main_arg4))) := by
  have e : W3 m ρ c (Proc.devRef .tc main_v28) = shapeCast S1x64 (W2 m ρ c (Proc.devRef .tc main_arg4)) shapeCasts_S64_S1x64 := by
    show StableHlo.after hostOps1 (W2 m ρ c) (Proc.devRef .tc main_v28) = _
    after_results
    rfl
  rw [e, w2_arg4 m ρ c]
  exact shapeCast_row _ _

theorem w3_v16 (c : Dev nD) : W3 m ρ c (Proc.devRef .tc main_v16) = (col (degNorm (m ((c.tc : Thread nD τ).loc main_arg2)))) :=
  ((StableHlo.after_of_forall_not_mem _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide))) : W3 m ρ c (Proc.devRef .tc main_v16) = W2 m ρ c (Proc.devRef .tc main_v16))).trans (w2_v16 m ρ c)

theorem w3_v11 (c : Dev nD) : W3 m ρ c (Proc.devRef .tc main_v11) = (col (degNorm (m ((c.tc : Thread nD τ).loc main_arg1)))) :=
  ((StableHlo.after_of_forall_not_mem _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide))) : W3 m ρ c (Proc.devRef .tc main_v11) = W2 m ρ c (Proc.devRef .tc main_v11))).trans (w2_v11 m ρ c)

theorem w3_arg1 (c : Dev nD) : W3 m ρ c (Proc.devRef .tc main_arg1) = (m ((c.tc : Thread nD τ).loc main_arg1)) :=
  ((StableHlo.after_of_forall_not_mem _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide))) : W3 m ρ c (Proc.devRef .tc main_arg1) = W2 m ρ c (Proc.devRef .tc main_arg1))).trans (w2_arg1 m ρ c)

theorem w3_arg2 (c : Dev nD) : W3 m ρ c (Proc.devRef .tc main_arg2) = (m ((c.tc : Thread nD τ).loc main_arg2)) :=
  ((StableHlo.after_of_forall_not_mem _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide))) : W3 m ρ c (Proc.devRef .tc main_arg2) = W2 m ρ c (Proc.devRef .tc main_arg2))).trans (w2_arg2 m ρ c)

theorem w3_arg5 (c : Dev nD) : W3 m ρ c (Proc.devRef .tc main_arg5) = (m ((c.tc : Thread nD τ).loc main_arg5)) :=
  ((StableHlo.after_of_forall_not_mem _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide))) : W3 m ρ c (Proc.devRef .tc main_arg5) = W2 m ρ c (Proc.devRef .tc main_arg5))).trans (w2_arg5 m ρ c)

theorem w3_arg6 (c : Dev nD) : W3 m ρ c (Proc.devRef .tc main_arg6) = (m ((c.tc : Thread nD τ).loc main_arg6)) :=
  ((StableHlo.after_of_forall_not_mem _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide))) : W3 m ρ c (Proc.devRef .tc main_arg6) = W2 m ρ c (Proc.devRef .tc main_arg6))).trans (w2_arg6 m ρ c)

/-- The first closing region's result. -/
theorem w4_v29 (c : Dev nD) : W4 m ρ c (Proc.devRef .tc main_v29) = (scaleBiasRelu (aggregate (m ((c.tc : Thread nD τ).loc main_arg1)) (m ((c.tc : Thread nD τ).loc main_arg2)) (scaledProduct128 (m ((c.tc : Thread nD τ).loc main_arg0)) (col (degNorm (m ((c.tc : Thread nD τ).loc main_arg1)))) (m ((c.tc : Thread nD τ).loc main_arg3)))) (col (degNorm (m ((c.tc : Thread nD τ).loc main_arg2)))) (row (m ((c.tc : Thread nD τ).loc main_arg4)))) :=
  ((W4_arr m ρ c 3).trans (RegionValue.closeRelu_final (V3 m ρ) c)).trans (by
    show scaleBiasRelu (W3 m ρ c (Proc.devRef .tc main_v27)) (W3 m ρ c (Proc.devRef .tc main_v16)) (W3 m ρ c (Proc.devRef .tc main_v28)) = _
    rw [w3_v27 m ρ c, w3_v16 m ρ c, w3_v28 m ρ c])

theorem w4_v11 (c : Dev nD) : W4 m ρ c (Proc.devRef .tc main_v11) = (col (degNorm (m ((c.tc : Thread nD τ).loc main_arg1)))) :=
  (W4_of_ne m ρ c main_v11 (by decide)).trans (w3_v11 m ρ c)

theorem w4_arg1 (c : Dev nD) : W4 m ρ c (Proc.devRef .tc main_arg1) = (m ((c.tc : Thread nD τ).loc main_arg1)) :=
  (W4_of_ne m ρ c main_arg1 (by decide)).trans (w3_arg1 m ρ c)

theorem w4_arg2 (c : Dev nD) : W4 m ρ c (Proc.devRef .tc main_arg2) = (m ((c.tc : Thread nD τ).loc main_arg2)) :=
  (W4_of_ne m ρ c main_arg2 (by decide)).trans (w3_arg2 m ρ c)

theorem w4_arg5 (c : Dev nD) : W4 m ρ c (Proc.devRef .tc main_arg5) = (m ((c.tc : Thread nD τ).loc main_arg5)) :=
  (W4_of_ne m ρ c main_arg5 (by decide)).trans (w3_arg5 m ρ c)

theorem w4_arg6 (c : Dev nD) : W4 m ρ c (Proc.devRef .tc main_arg6) = (m ((c.tc : Thread nD τ).loc main_arg6)) :=
  (W4_of_ne m ρ c main_arg6 (by decide)).trans (w3_arg6 m ρ c)

theorem w4_v16 (c : Dev nD) : W4 m ρ c (Proc.devRef .tc main_v16) = (col (degNorm (m ((c.tc : Thread nD τ).loc main_arg2)))) :=
  ((W4_arr m ρ c 1).trans (((dat1 (V3 m ρ) c).arrAt_in 1 rfl _).trans (A_eq1 (V3 m ρ) c 1))).trans (w3_v16 m ρ c)

/-- The second product region's result. -/
theorem w5_v30 (c : Dev nD) : W5 m ρ c (Proc.devRef .tc main_v30) = (scaledProduct64 (scaleBiasRelu (aggregate (m ((c.tc : Thread nD τ).loc main_arg1)) (m ((c.tc : Thread nD τ).loc main_arg2)) (scaledProduct128 (m ((c.tc : Thread nD τ).loc main_arg0)) (col (degNorm (m ((c.tc : Thread nD τ).loc main_arg1)))) (m ((c.tc : Thread nD τ).loc main_arg3)))) (col (degNorm (m ((c.tc : Thread nD τ).loc main_arg2)))) (row (m ((c.tc : Thread nD τ).loc main_arg4)))) (col (degNorm (m ((c.tc : Thread nD τ).loc main_arg1)))) (m ((c.tc : Thread nD τ).loc main_arg5))) :=
  ((W5_arr m ρ c 3).trans (RegionValue.product64_final (V4 m ρ) c)).trans (by
    show scaledProduct64 (W4 m ρ c (Proc.devRef .tc main_v29)) (W4 m ρ c (Proc.devRef .tc main_v11)) (W4 m ρ c (Proc.devRef .tc main_arg5)) = _
    rw [w4_v29 m ρ c, w4_v11 m ρ c, w4_arg5 m ρ c])

theorem w5_arg1 (c : Dev nD) : W5 m ρ c (Proc.devRef .tc main_arg1) = (m ((c.tc : Thread nD τ).loc main_arg1)) :=
  (W5_of_ne m ρ c main_arg1 (by decide)).trans (w4_arg1 m ρ c)

theorem w5_arg2 (c : Dev nD) : W5 m ρ c (Proc.devRef .tc main_arg2) = (m ((c.tc : Thread nD τ).loc main_arg2)) :=
  (W5_of_ne m ρ c main_arg2 (by decide)).trans (w4_arg2 m ρ c)

theorem w5_arg6 (c : Dev nD) : W5 m ρ c (Proc.devRef .tc main_arg6) = (m ((c.tc : Thread nD τ).loc main_arg6)) :=
  (W5_of_ne m ρ c main_arg6 (by decide)).trans (w4_arg6 m ρ c)

theorem w5_v16 (c : Dev nD) : W5 m ρ c (Proc.devRef .tc main_v16) = (col (degNorm (m ((c.tc : Thread nD τ).loc main_arg2)))) :=
  (W5_of_ne m ρ c main_v16 (by decide)).trans (w4_v16 m ρ c)

/-- The second aggregation and the second bias row, as the last host stretch leaves them. -/
theorem w6_v40 (c : Dev nD) : W6 m ρ c (Proc.devRef .tc main_v40) = (aggregate (m ((c.tc : Thread nD τ).loc main_arg1)) (m ((c.tc : Thread nD τ).loc main_arg2)) (scaledProduct64 (scaleBiasRelu (aggregate (m ((c.tc : Thread nD τ).loc main_arg1)) (m ((c.tc : Thread nD τ).loc main_arg2)) (scaledProduct128 (m ((c.tc : Thread nD τ).loc main_arg0)) (col (degNorm (m ((c.tc : Thread nD τ).loc main_arg1)))) (m ((c.tc : Thread nD τ).loc main_arg3)))) (col (degNorm (m ((c.tc : Thread nD τ).loc main_arg2)))) (row (m ((c.tc : Thread nD τ).loc main_arg4)))) (col (degNorm (m ((c.tc : Thread nD τ).loc main_arg1)))) (m ((c.tc : Thread nD τ).loc main_arg5)))) := by
  have e : W6 m ρ c (Proc.devRef .tc main_v40) = aggregate (W5 m ρ c (Proc.devRef .tc main_arg1)) (W5 m ρ c (Proc.devRef .tc main_arg2)) (W5 m ρ c (Proc.devRef .tc main_v30)) := by
    show StableHlo.after hostOps3 (W5 m ρ c) (Proc.devRef .tc main_v40) = _
    after_results
    rfl
  rw [e, w5_arg1 m ρ c, w5_arg2 m ρ c, w5_v30 m ρ c]

theorem w6_v41 (c : Dev nD) : W6 m ρ c (Proc.devRef .tc main_v41) = (row (m ((c.tc : Thread nD τ).loc main_arg6))) := by
  have e : W6 m ρ c (Proc.devRef .tc main_v41) = shapeCast S1x64 (W5 m ρ c (Proc.devRef .tc main_arg6)) shapeCasts_S64_S1x64 := by
    show StableHlo.after hostOps3 (W5 m ρ c) (Proc.devRef .tc main_v41) = _
    after_results
    rfl
  rw [e, w5_arg6 m ρ c]
  exact shapeCast_row _ _

theorem w6_v16 (c : Dev nD) : W6 m ρ c (Proc.devRef .tc main_v16) = (col (degNorm (m ((c.tc : Thread nD τ).loc main_arg2)))) :=
  ((StableHlo.after_of_forall_not_mem _ _ (List.forall_iff_forall_mem.mp (by
      simp only [hostOps3, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide))) : W6 m ρ c (Proc.devRef .tc main_v16) = W5 m ρ c (Proc.devRef .tc main_v16))).trans (w5_v16 m ρ c)

/-- The last closing region's result, which is the program's: the two layers of the argument arrays. -/
theorem result_eq (c : Dev nD) : W7 m ρ c (Proc.devRef .tc main_v42) = twoLayers (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  ((W7_arr m ρ c 3).trans (RegionValue.close_final (V6 m ρ) c)).trans (by
    show scaleBias (W6 m ρ c (Proc.devRef .tc main_v40)) (W6 m ρ c (Proc.devRef .tc main_v16)) (W6 m ρ c (Proc.devRef .tc main_v41)) = _
    rw [w6_v40 m ρ c, w6_v16 m ρ c, w6_v41 m ρ c]
    rfl)

end Cert.KernelIdeal.Fold

end
-- ==== Proof.RefSide.lean ====
/- The reference program's result is the two layers of Spec.lean.

   The reference computes each layer with whole-array host operations: the features times the broadcast norm, a
   matrix product (at the extended reals a plain sum over the contracted index), the gather and the adding scatter,
   the broadcast norm and bias, and for the first layer the maximum with a broadcast zero. Stage by stage these are
   the specification's functions; the degree norms are computed twice by the same operations. -/
import proofs.«155027_j12412455486167_1_alg».proof.Proof.Gen.ReferenceIdeal.Read
import proofs.«155027_j12412455486167_1_alg».proof.Proof.Spec
import proofs.«155027_j12412455486167_1_alg».proof.Proof.LibDotPlain
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Read Cert.GraphConv Idealize.ShloMosaic Idealize.ShloMosaic.TcCoe Idealize.ShloMosaic.ValueIdx Idealize.SL.Sem
open scoped BigOperators

/-! ## The host's own operations: the degree norms and the aggregations

Both sides name the same operations with the same dimension numbers, so these stages are the specification's
functions by unfolding. -/

/-- The source-degree norm of the first layer. -/
theorem v10_eq (x1 : Vec Ideal S3200000 .i32) : val_main_v10 (F := Ideal) x1 = degNorm x1 := rfl

/-- The destination-degree norm of the first layer. -/
theorem v14_eq (x2 : Vec Ideal S3200000 .i32) : val_main_v14 (F := Ideal) x2 = degNorm x2 := rfl

/-- The source-degree norm, computed again for the second layer. -/
theorem v46_eq (x1 : Vec Ideal S3200000 .i32) : val_main_v46 (F := Ideal) x1 = degNorm x1 := rfl

/-- The destination-degree norm, computed again for the second layer. -/
theorem v50_eq (x2 : Vec Ideal S3200000 .i32) : val_main_v50 (F := Ideal) x2 = degNorm x2 := rfl

/-- The first layer's gather and adding scatter are the aggregation of the first product. -/
theorem v28_eq (x0 : FVec Ideal S100000x128 .f32) (x1 x2 : Vec Ideal S3200000 .i32) (x3 : FVec Ideal S128x64 .f32) :
    val_main_v28 (F := Ideal) x0 x1 x2 x3 = aggregate x1 x2 (val_main_v18 (F := Ideal) x0 x1 x3) := rfl

/-- The second layer's gather and adding scatter are the aggregation of the second product. -/
theorem v64_eq (x0 : FVec Ideal S100000x128 .f32) (x1 x2 : Vec Ideal S3200000 .i32) (x3 : FVec Ideal S128x64 .f32)
    (x4 : FVec Ideal S64 .f32) (x5 : FVec Ideal S64x64 .f32) :
    val_main_v64 (F := Ideal) x0 x1 x2 x3 x4 x5 = aggregate x1 x2 (val_main_v54 (F := Ideal) x0 x1 x2 x3 x4 x5) := rfl

/-! ## The scaled products

The features times the norm broadcast along the rows, then the matrix product: at an index the sum over the
contracted coordinate k of (x (a, k) · n a) · w (k, b). -/

/-- The first layer's scaled product (128 input features). -/
theorem v18_eq (x0 : FVec Ideal S100000x128 .f32) (x1 : Vec Ideal S3200000 .i32) (x3 : FVec Ideal S128x64 .f32) :
    val_main_v18 (F := Ideal) x0 x1 x3 = scaledProduct128 x0 (col (degNorm x1)) x3 := by
  funext i
  obtain ⟨p, q, rfl⟩ : ∃ (p : Fin 100000) (q : Fin 64), i = ix2 p q := ⟨i 0, i 1, eq_ix2 i⟩
  rw [val_main_v18_apply]
  show _ = ∑ k : Fin 128, (x0 (ix2 p k) * degNorm x1 (ix1 p)) * x3 (ix2 k q)
  refine Finset.sum_congr rfl fun k _ => ?_
  -- the operands' indices, by coordinates
  have hl : lidx_main_v18 (ix2 p q) k = ix2 p k :=
    funext fun a => Fin.ext (by match a with | ⟨0, _⟩ => rfl | ⟨1, _⟩ => rfl)
  have hr : ridx_main_v18 (ix2 p q) k = ix2 k q :=
    funext fun a => Fin.ext (by match a with | ⟨0, _⟩ => rfl | ⟨1, _⟩ => rfl)
  -- the norm is read at the row, whatever the column
  have hn : idx_main_v15 (idx_main_v16 (ix2 p k)) = ix1 p :=
    funext fun a => Fin.ext (by match a with | ⟨0, _⟩ => rfl)
  rw [hl, hr, val_main_v17_apply, val_main_v16_apply, val_main_v15_apply, hn, v10_eq]
  rfl

/-- The second layer's scaled product (64 input features). -/
theorem v54_eq (x0 : FVec Ideal S100000x128 .f32) (x1 x2 : Vec Ideal S3200000 .i32) (x3 : FVec Ideal S128x64 .f32)
    (x4 : FVec Ideal S64 .f32) (x5 : FVec Ideal S64x64 .f32) :
    val_main_v54 (F := Ideal) x0 x1 x2 x3 x4 x5
      = scaledProduct64 (val_main_v35 (F := Ideal) x0 x1 x2 x3 x4) (col (degNorm x1)) x5 := by
  funext i
  obtain ⟨p, q, rfl⟩ : ∃ (p : Fin 100000) (q : Fin 64), i = ix2 p q := ⟨i 0, i 1, eq_ix2 i⟩
  rw [val_main_v54_apply]
  show _ = ∑ k : Fin 64,
    (val_main_v35 (F := Ideal) x0 x1 x2 x3 x4 (ix2 p k) * degNorm x1 (ix1 p)) * x5 (ix2 k q)
  refine Finset.sum_congr rfl fun k _ => ?_
  have hl : lidx_main_v54 (ix2 p q) k = ix2 p k :=
    funext fun a => Fin.ext (by match a with | ⟨0, _⟩ => rfl | ⟨1, _⟩ => rfl)
  have hr : ridx_main_v54 (ix2 p q) k = ix2 k q :=
    funext fun a => Fin.ext (by match a with | ⟨0, _⟩ => rfl | ⟨1, _⟩ => rfl)
  have hn : idx_main_v51 (idx_main_v52 (ix2 p k)) = ix1 p :=
    funext fun a => Fin.ext (by match a with | ⟨0, _⟩ => rfl)
  rw [hl, hr, val_main_v53_apply, val_main_v52_apply, val_main_v51_apply, hn, v46_eq]
  rfl

/-! ## The closing steps

The aggregate times the norm broadcast along the rows, plus the bias broadcast along the columns; the first layer
then takes the maximum with a broadcast zero. -/

/-- The first layer's closing step, with the maximum with 0. -/
theorem v35_eq (x0 : FVec Ideal S100000x128 .f32) (x1 x2 : Vec Ideal S3200000 .i32) (x3 : FVec Ideal S128x64 .f32)
    (x4 : FVec Ideal S64 .f32) :
    val_main_v35 (F := Ideal) x0 x1 x2 x3 x4
      = scaleBiasRelu (val_main_v28 (F := Ideal) x0 x1 x2 x3) (col (degNorm x2)) (row x4) := by
  funext i
  obtain ⟨p, q, rfl⟩ : ∃ (p : Fin 100000) (q : Fin 64), i = ix2 p q := ⟨i 0, i 1, eq_ix2 i⟩
  -- the norm is read at the row, the bias at the column
  have hn : idx_main_v29 (idx_main_v30 (ix2 p q)) = ix1 p :=
    funext fun a => Fin.ext (by match a with | ⟨0, _⟩ => rfl)
  have hb : idx_main_v32 (idx_main_v33 (ix2 p q)) = ix1 q :=
    funext fun a => Fin.ext (by match a with | ⟨0, _⟩ => rfl)
  rw [val_main_v35_apply, val_main_v34_apply, val_main_v31_apply, val_main_v30_apply, val_main_v29_apply,
    val_main_v33_apply, val_main_v32_apply, val_main_call0_v0_apply, val_main_call0_cst_apply, hn, hb, v14_eq]
  rfl

/-- The second layer's closing step. -/
theorem v70_eq (x0 : FVec Ideal S100000x128 .f32) (x1 x2 : Vec Ideal S3200000 .i32) (x3 : FVec Ideal S128x64 .f32)
    (x4 : FVec Ideal S64 .f32) (x5 : FVec Ideal S64x64 .f32) (x6 : FVec Ideal S64 .f32) :
    val_main_v70 (F := Ideal) x0 x1 x2 x3 x4 x5 x6
      = scaleBias (val_main_v64 (F := Ideal) x0 x1 x2 x3 x4 x5) (col (degNorm x2)) (row x6) := by
  funext i
  obtain ⟨p, q, rfl⟩ : ∃ (p : Fin 100000) (q : Fin 64), i = ix2 p q := ⟨i 0, i 1, eq_ix2 i⟩
  have hn : idx_main_v65 (idx_main_v66 (ix2 p q)) = ix1 p :=
    funext fun a => Fin.ext (by match a with | ⟨0, _⟩ => rfl)
  have hb : idx_main_v68 (idx_main_v69 (ix2 p q)) = ix1 q :=
    funext fun a => Fin.ext (by match a with | ⟨0, _⟩ => rfl)
  rw [val_main_v70_apply, val_main_v67_apply, val_main_v66_apply, val_main_v65_apply,
    val_main_v69_apply, val_main_v68_apply, hn, hb, v50_eq]
  rfl

/-! ## The whole run -/

/-- The last stage is the two layers of the argument arrays. -/
theorem v70_twoLayers (x0 : FVec Ideal S100000x128 .f32) (x1 x2 : Vec Ideal S3200000 .i32) (x3 : FVec Ideal S128x64 .f32)
    (x4 : FVec Ideal S64 .f32) (x5 : FVec Ideal S64x64 .f32) (x6 : FVec Ideal S64 .f32) :
    val_main_v70 (F := Ideal) x0 x1 x2 x3 x4 x5 x6 = twoLayers x0 x1 x2 x3 x4 x5 x6 := by
  rw [v70_eq, v64_eq, v54_eq, v35_eq, v28_eq, v18_eq]
  rfl

/-- The reference run's result term is the two layers of its argument arrays. -/
theorem reference_eq (m : (ℓ : Loc nD τ sig) → Buf (Elt Ideal) ℓ) (c : Dev nD) :
    Cert.ReferenceIdeal.Value.res_main_v70 (F := Ideal) m c
      = twoLayers (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  rw [Cert.ReferenceIdeal.Read.val_main_v70_eq]
  exact v70_twoLayers _ _ _ _ _ _ _

end Cert.ReferenceIdeal.RefValue

end
-- ==== Proof.lean ====
/- The certificate of a two-layer graph convolution: four tiled kernels with host glue against the plain whole-array
   program.

   Both programs compute, for node features x, edge lists src and dst, and per layer a weight matrix W and a bias b,
       layer (h) = D_dst^(-1/2) · A · (D_src^(-1/2) · h · W) + b,
   the first layer followed by the maximum with 0: D_src and D_dst are the degrees counted along src and dst and
   clamped below by 1, and A sums the rows gathered along src into the rows dst names. The kernel program computes the
   degree norms once, the product (with the source norm folded into the rows, operands narrowed to a shorter format
   that is the identity over the extended reals) and the closing step (destination norm, bias, maximum) in blocks of
   5000 rows, and leaves the gather and the adding scatter to the host; the reference does every step on whole
   arrays and recomputes the norms per layer. Over the extended reals both are the function `twoLayers` of Spec.lean:
     * the kernel side: the program's run with its result array named (KernelRun.lean), each region's array after its
       20 grid points as one whole-array function (RegionProduct.lean, RegionClose.lean), and the result traced through
       the host stretches and the regions (KernelFold.lean);
     * the reference side: its run's composed term read stage by stage (RefSide.lean).
   The three frames are the generated ones (the reference's is its run with the result dropped); no operation of the
   kernel was rewritten by the idealization, so there is nothing to preserve. -/
import proofs.«155027_j12412455486167_1_alg».proof.Defs
import proofs.«155027_j12412455486167_1_alg».proof.Proof.Gen.Kernel
import proofs.«155027_j12412455486167_1_alg».proof.Proof.Gen.Kernel.Skeleton
import proofs.«155027_j12412455486167_1_alg».proof.Proof.Gen.Kernel.Launch
import proofs.«155027_j12412455486167_1_alg».proof.Proof.Gen.Kernel.Points
import proofs.«155027_j12412455486167_1_alg».proof.Proof.Gen.Kernel.Frame
import proofs.«155027_j12412455486167_1_alg».proof.Proof.Gen.KernelIdeal
import proofs.«155027_j12412455486167_1_alg».proof.Proof.Gen.KernelIdeal.Skeleton
import proofs.«155027_j12412455486167_1_alg».proof.Proof.Gen.KernelIdeal.Launch
import proofs.«155027_j12412455486167_1_alg».proof.Proof.Gen.KernelIdeal.Points
import proofs.«155027_j12412455486167_1_alg».proof.Proof.Gen.KernelIdeal.Frame
import proofs.«155027_j12412455486167_1_alg».proof.Proof.Gen.ReferenceIdeal
import proofs.«155027_j12412455486167_1_alg».proof.Proof.Gen.ReferenceIdeal.Run
import proofs.«155027_j12412455486167_1_alg».proof.Proof.Gen.ReferenceIdeal.Read
import proofs.«155027_j12412455486167_1_alg».proof.Proof.Gen.Pre_finite_inputs
import proofs.«155027_j12412455486167_1_alg».proof.Proof.KernelRun
import proofs.«155027_j12412455486167_1_alg».proof.Proof.KernelFold
import proofs.«155027_j12412455486167_1_alg».proof.Proof.RefSide
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the seven arguments both programs end with the two layers of those arguments. -/
theorem algebraic : Cert.algebraic_KernelIdeal_ReferenceIdeal := by
  intro m ρ m' ρ' _ hagree
  refine ⟨fun c => Cert.GraphConv.twoLayers (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Fold.result_eq m ρ c), (h c).2⟩)
      (Cert.KernelIdeal.Gen.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.reference_eq m' c, (hagree c).1, (hagree c).2.1, (hagree c).2.2.1, (hagree c).2.2.2.1,
      (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
